-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x1024 : Shape := ⟨2, ![16384, 1024]⟩
abbrev S4096x1024 : Shape := ⟨2, ![4096, 1024]⟩
abbrev S4096x512 : Shape := ⟨2, ![4096, 512]⟩
abbrev S4096 : Shape := ⟨1, ![4096]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096x512 : S_.BroadcastsInDim S4096x512 (![] : Fin 0 → Fin S4096x512.rank)
  reducesTo_S4096x512_S_d0_1 : S4096x512.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x512 .f32) (main_arg5 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S16384x512 .f32) (main_arg1 : FVec F S16384x1024 .f32) (main_arg2 : FVec F S16384x1024 .f32) (main_arg3 : FVec F S4096x1024 .f32) (main_arg4 : FVec F S4096x512 .f32) (main_arg5 : FVec F S4096 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_v13 main_v16
-- ==== Kernel.lean ====
abbrev S16384x512 : Shape := ⟨2, ![16384, 512]⟩
abbrev S16384x1024 : Shape := ⟨2, ![16384, 1024]⟩
abbrev S4096x1024 : Shape := ⟨2, ![4096, 1024]⟩
abbrev S4096x512 : Shape := ⟨2, ![4096, 512]⟩
abbrev S4096 : Shape := ⟨1, ![4096]⟩
abbrev S4096x1536 : Shape := ⟨2, ![4096, 1536]⟩
abbrev S1x4096 : Shape := ⟨2, ![1, 4096]⟩
abbrev S512x1024 : Shape := ⟨2, ![512, 1024]⟩
abbrev S512x512 : Shape := ⟨2, ![512, 512]⟩
abbrev S512x1536 : Shape := ⟨2, ![512, 1536]⟩
abbrev S1024x1536 : Shape := ⟨2, ![1024, 1536]⟩
abbrev S1x1024 : Shape := ⟨2, ![1, 1024]⟩

abbrev nBuf : Space → Nat
  | .hbm => 11
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x1024, .f32⟩
  | .hbm, ⟨3, _⟩ => ⟨S4096x1024, .f32⟩
  | .hbm, ⟨4, _⟩ => ⟨S4096x512, .f32⟩
  | .hbm, ⟨5, _⟩ => ⟨S4096, .f32⟩
  | .hbm, ⟨6, _⟩ => ⟨S4096x1024, .bf16⟩
  | .hbm, ⟨7, _⟩ => ⟨S4096x512, .bf16⟩
  | .hbm, ⟨8, _⟩ => ⟨S4096x1536, .bf16⟩
  | .hbm, ⟨9, _⟩ => ⟨S1x4096, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S4096x1536, .bf16⟩
  | .local _ .vmem, ⟨7, _⟩ => ⟨S1x4096, .f32⟩
  | .local _ .vmem, ⟨8, _⟩ => ⟨S512x1024, .f32⟩
  | .local _ .vmem, ⟨9, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  concatenates_S4096x1024_S4096x512_S4096x1536_d1 : Shape.Concatenates [S4096x1024, S4096x512] S4096x1536 1
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  inb_S512x512_S512x512_0_0 : ∀ a, (![0, 0] : Fin 2 → Nat) a + S512x512.size a ≤ S512x512.size a
  h_S512x512 : 0 < S512x512.numel
  concatenates_S512x1024_S512x512_S512x1536_d1 : Shape.Concatenates [S512x1024, S512x512] S512x1536 1
  inb_S4096x1536_S1024x1536_0_0 : ∀ a, (![0, 0] : Fin 2 → Nat) a + S1024x1536.size a ≤ S4096x1536.size a
  h_S1024x1536 : 0 < S1024x1536.numel
  shapeCasts_S1024x1536_S1024x1536 : S1024x1536.ShapeCasts S1024x1536
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S512x1024 : S1x1024.Broadcasts S512x1024
  inb_S4096x1536_S1024x1536_1024_0 : ∀ a, (![1024, 0] : Fin 2 → Nat) a + S1024x1536.size a ≤ S4096x1536.size a
  inb_S1x4096_S1x1024_0_1024 : ∀ a, (![0, 1024] : Fin 2 → Nat) a + S1x1024.size a ≤ S1x4096.size a
  inb_S4096x1536_S1024x1536_2048_0 : ∀ a, (![2048, 0] : Fin 2 → Nat) a + S1024x1536.size a ≤ S4096x1536.size a
  inb_S1x4096_S1x1024_0_2048 : ∀ a, (![0, 2048] : Fin 2 → Nat) a + S1x1024.size a ≤ S1x4096.size a
  inb_S4096x1536_S1024x1536_3072_0 : ∀ a, (![3072, 0] : Fin 2 → Nat) a + S1024x1536.size a ≤ S4096x1536.size a
  inb_S1x4096_S1x1024_0_3072 : ∀ a, (![0, 3072] : Fin 2 → Nat) a + S1x1024.size a ≤ S1x4096.size a
  dot_S512x1536_S1024x1536_S512x1024_1_1_0_0_n_n_wf : DotDims.WF S512x1536 S1024x1536 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1536.size a ≤ S4096x1536.size a
  hwx0_3 : ∀ i : grid0.Coords, EltTy.bits .bf16 = 32 ∨ (Rect.block (s := S4096x1536) S4096x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)

variable [Facts₀]

def dot_S512x1536_S1024x1536_S512x1024_1_1_0_0_n_n : DotDims S512x1536 S1024x1536 S512x1024 where
  lhsContracting := [1]
  rhsContracting := [1]
  lhsNonContracting := [0]
  rhsNonContracting := [0]
  lhsBatch := []
  rhsBatch := []
  wf := dot_S512x1536_S1024x1536_S512x1024_1_1_0_0_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S4096x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x1024 : Shape := ⟨2, ![16384, 1024]⟩
abbrev S4096x1024 : Shape := ⟨2, ![4096, 1024]⟩
abbrev S4096x512 : Shape := ⟨2, ![4096, 512]⟩
abbrev S4096 : Shape := ⟨1, ![4096]⟩
abbrev S16384x4096 : Shape := ⟨2, ![16384, 4096]⟩
abbrev S1x4096 : Shape := ⟨2, ![1, 4096]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x1024, .f32⟩
  | .hbm, ⟨3, _⟩ => ⟨S4096x1024, .f32⟩
  | .hbm, ⟨4, _⟩ => ⟨S4096x512, .f32⟩
  | .hbm, ⟨5, _⟩ => ⟨S4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  dot_S16384x1024_S4096x1024_S16384x4096_1_1_0_0_n_n_wf : DotDims.WF S16384x1024 S4096x1024 S16384x4096 [1] [1] [0] [0] [] []
  dot_S16384x512_S4096x512_S16384x4096_1_1_0_0_n_n_wf : DotDims.WF S16384x512 S4096x512 S16384x4096 [1] [1] [0] [0] [] []

variable [Facts₀]

def dot_S16384x1024_S4096x1024_S16384x4096_1_1_0_0_n_n : DotDims S16384x1024 S4096x1024 S16384x4096 where
  lhsContracting := [1]
  rhsContracting := [1]
  lhsNonContracting := [0]
  rhsNonContracting := [0]
  lhsBatch := []
  rhsBatch := []
  wf := dot_S16384x1024_S4096x1024_S16384x4096_1_1_0_0_n_n_wf
def dot_S16384x512_S4096x512_S16384x4096_1_1_0_0_n_n : DotDims S16384x512 S4096x512 S16384x4096 where
  lhsContracting := [1]
  rhsContracting := [1]
  lhsNonContracting := [0]
  rhsNonContracting := [0]
  lhsBatch := []
  rhsBatch := []
  wf := dot_S16384x512_S4096x512_S16384x4096_1_1_0_0_n_n_wf

class Facts : Prop extends Facts₀ where

variable [Facts]
-- ==== Proof.LstmCell.lean ====
/-
  One step of an LSTM cell as ONE function of its six argument arrays, index by index over the extended reals, and the
  three small laws that let two differently arranged programs be read as that function.

  For batch row `n` and gate column `g` (4096 columns: the input, forget, candidate and output gates, 1024 each) the
  pre-activation is  h_prev[n,·]·Wh[g,·] + behavior[n,·]·Wx[g,·] + b[g].  With σ the logistic function, the new hidden
  state at (n, j) is  σ(pre[n, 3072+j]) · tanh( σ(pre[n, 1024+j]) · c_prev[n,j] + σ(pre[n, j]) · tanh(pre[n, 2048+j]) ).

  The laws: (1) σ x is, by definition on the extended reals, 1 / (1 + e^(−x)) — the quotient a program may spell out
  operation by operation, with the word 0x3F800000 for the real 1; (2) a sum over 1536 terms is the sum of its first
  1024 and its last 512 (associativity and commutativity of + only, so no finiteness is asked of anything);
  (3) a two-piece concatenation along the column axis reads the first piece below column 1024 and the second from
  there on. Together (2) and (3) say that ONE contraction over concatenated operands is the SUM of the two separate
  contractions.
-/
import Idealize.ShloMosaic.PureOps.Ideal
import Idealize.ShloMosaic.Lib.ValueIdx
import Idealize.ShloMosaic.Lib.IdealHost
import Idealize.ShloMosaic.Lib.Pipeline.Value

noncomputable section

open scoped BigOperators
open Idealize.ShloMosaic Idealize.ShloMosaic.ValueIdx

namespace Cert.LstmCell

/-- Column `o + q` of the 4096 gate columns: column `q` of the gate whose columns start at `o`. -/
abbrev gcol (o : Nat) (ho : o + 1024 ≤ 4096) (q : Fin 1024) : Fin 4096 := ⟨o + q.val, by have := q.isLt; omega⟩

/-- Column `k` of the first 1024 of 1536 columns. -/
abbrev colL (k : Fin 1024) : Fin 1536 := ⟨k.val, by have := k.isLt; omega⟩
/-- Column `1024 + k`: the last 512 of 1536 columns. -/
abbrev colR (k : Fin 512) : Fin 1536 := ⟨1024 + k.val, by have := k.isLt; omega⟩

/-- Gate column `g`'s pre-activation for batch row `n`: the hidden row against `Wh`'s row `g`, plus the input row
    against `Wx`'s row `g`, plus the bias. -/
def gatePre (beh : (⟨2, ![16384, 512]⟩ : Shape).Idx → EReal) (h : (⟨2, ![16384, 1024]⟩ : Shape).Idx → EReal)
    (Wh : (⟨2, ![4096, 1024]⟩ : Shape).Idx → EReal) (Wx : (⟨2, ![4096, 512]⟩ : Shape).Idx → EReal)
    (b : (⟨1, ![4096]⟩ : Shape).Idx → EReal) (n : Fin 16384) (g : Fin 4096) : EReal :=
  (∑ k : Fin 1024, h (ix2 n k) * Wh (ix2 g k) + ∑ k : Fin 512, beh (ix2 n k) * Wx (ix2 g k)) + b (ix1 g)

/-- The new hidden state: output gate times tanh of the new cell state, which is forget gate times the old cell state
    plus input gate times the candidate. -/
def cell (beh : (⟨2, ![16384, 512]⟩ : Shape).Idx → EReal) (h cp : (⟨2, ![16384, 1024]⟩ : Shape).Idx → EReal)
    (Wh : (⟨2, ![4096, 1024]⟩ : Shape).Idx → EReal) (Wx : (⟨2, ![4096, 512]⟩ : Shape).Idx → EReal)
    (b : (⟨1, ![4096]⟩ : Shape).Idx → EReal) : (⟨2, ![16384, 1024]⟩ : Shape).Idx → EReal := fun i =>
  Ideal.logistic (gatePre beh h Wh Wx b (i 0) (gcol 3072 (by norm_num) (i 1)))
    * Ideal.tanh (Ideal.logistic (gatePre beh h Wh Wx b (i 0) (gcol 1024 (by norm_num) (i 1))) * cp i
        + Ideal.logistic (gatePre beh h Wh Wx b (i 0) (gcol 0 (by norm_num) (i 1)))
          * Ideal.tanh (gatePre beh h Wh Wx b (i 0) (gcol 2048 (by norm_num) (i 1))))

/-- The logistic function spelled as the quotient 1 / (1 + e^(−x)), the ones given by their f32 word. -/
theorem logistic_expanded (x : EReal) :
    Ideal.div (Ideal.ofBits .f32 0x3F800000#32) (Ideal.ofBits .f32 0x3F800000#32 + Ideal.exp (-x)) = Ideal.logistic x := by
  rw [Ideal.ofBits_one_f32]; rfl

/-- A sum over 1536 terms is the sum of the first 1024 and of the last 512. -/
theorem sum_cols (f : Fin 1536 → EReal) :
    ∑ k : Fin 1536, f k = ∑ k : Fin 1024, f (colL k) + ∑ k : Fin 512, f (colR k) :=
  Fin.sum_univ_add (a := 1024) (b := 512) f

section Concat
variable {M : Nat} (A : (⟨2, ![M, 1024]⟩ : Shape).Idx → EReal) (B : (⟨2, ![M, 512]⟩ : Shape).Idx → EReal)
  (hc : Shape.Concatenates [(⟨2, ![M, 1024]⟩ : Shape), (⟨2, ![M, 512]⟩ : Shape)] (⟨2, ![M, 1536]⟩ : Shape) 1)

/-- Below column 1024 the concatenation reads its first piece. -/
theorem concat_colL (p : Fin M) (k : Fin 1024) :
    concatenate (⟨2, ![M, 1536]⟩ : Shape) 1 [⟨(⟨2, ![M, 1024]⟩ : Shape), A⟩, ⟨(⟨2, ![M, 512]⟩ : Shape), B⟩] hc (ix2 p (colL k)) = A (ix2 p k) :=
  concatenate_pair_apply_left 1 A B hc (ix2 p (colL k)) rfl (ix2 p k)
    (fun b => match b with | ⟨0, _⟩ => rfl | ⟨1, _⟩ => rfl)

/-- From column 1024 on it reads its second piece, 1024 columns to the left. -/
theorem concat_colR (p : Fin M) (k : Fin 512) :
    concatenate (⟨2, ![M, 1536]⟩ : Shape) 1 [⟨(⟨2, ![M, 1024]⟩ : Shape), A⟩, ⟨(⟨2, ![M, 512]⟩ : Shape), B⟩] hc (ix2 p (colR k)) = B (ix2 p k) :=
  concatenate_pair_apply_right 1 A B hc (ix2 p (colR k)) rfl rfl (ix2 p k)
    (fun b => match b with | ⟨0, _⟩ => fun _ => rfl | ⟨1, _⟩ => fun hb => absurd rfl hb)
    (by show k.val + 1024 = 1024 + k.val; omega)

/-- ONE contraction with the concatenation on the left is the sum of the two pieces' contractions, each against
    its own columns of the right operand. -/
theorem concat_contraction {G : Nat} (R : (⟨2, ![G, 1536]⟩ : Shape).Idx → EReal) (p : Fin M) (g : Fin G) :
    ∑ k : Fin 1536, concatenate (⟨2, ![M, 1536]⟩ : Shape) 1 [⟨(⟨2, ![M, 1024]⟩ : Shape), A⟩, ⟨(⟨2, ![M, 512]⟩ : Shape), B⟩] hc (ix2 p k) * R (ix2 g k)
      = ∑ k : Fin 1024, A (ix2 p k) * R (ix2 g (colL k)) + ∑ k : Fin 512, B (ix2 p k) * R (ix2 g (colR k)) := by
  rw [sum_cols]
  congr 1
  · exact Finset.sum_congr rfl fun k _ => by rw [concat_colL]
  · exact Finset.sum_congr rfl fun k _ => by rw [concat_colR]

end Concat

end Cert.LstmCell

end
-- ==== Proof.RefCell.lean ====
/-
  The reference program computes the LSTM cell function.

  Its forty host operations are read one at a time at an index: the two matrix products are the two sums of a gate's
  pre-activation, their sum plus the broadcast bias is the pre-activation itself, the four column slices pick the four
  gates, and each sigmoid is spelled negate, exponential, add one, divide one — the logistic function's own
  definition on the extended reals. What remains is the cell's formula, term for term.
-/
import proofs.«417434_j64467459113378_3_alg».proof.Proof.Gen.ReferenceIdeal.Read
import proofs.«417434_j64467459113378_3_alg».proof.Proof.LstmCell

noncomputable section

open scoped BigOperators

namespace Cert.ReferenceIdeal.RefCell

open Cert.ReferenceIdeal Cert.ReferenceIdeal.Read Idealize.ShloMosaic Idealize.ShloMosaic.ValueIdx Cert.LstmCell

variable (x0 : (⟨S16384x512, .f32⟩ : BufTy).Contents (Elt Ideal)) (x1 x2 : (⟨S16384x1024, .f32⟩ : BufTy).Contents (Elt Ideal))
  (x3 : (⟨S4096x1024, .f32⟩ : BufTy).Contents (Elt Ideal)) (x4 : (⟨S4096x512, .f32⟩ : BufTy).Contents (Elt Ideal))
  (x5 : (⟨S4096, .f32⟩ : BufTy).Contents (Elt Ideal))

/-- The operand indices of the hidden-state product: row `j 0` of h_prev, row `j 1` of Wh, column `k` of both. -/
theorem lidx0_eq (j : S16384x4096.Idx) (k : Fin 1024) : lidx_main_v0 j k = ix2 (j 0) k :=
  funext fun a => match a with | ⟨0, _⟩ => rfl | ⟨1, _⟩ => rfl
theorem ridx0_eq (j : S16384x4096.Idx) (k : Fin 1024) : ridx_main_v0 j k = ix2 (j 1) k :=
  funext fun a => match a with | ⟨0, _⟩ => rfl | ⟨1, _⟩ => rfl
/-- The same for the input product: behavior's row `j 0`, Wx's row `j 1`. -/
theorem lidx1_eq (j : S16384x4096.Idx) (k : Fin 512) : lidx_main_v1 j k = ix2 (j 0) k :=
  funext fun a => match a with | ⟨0, _⟩ => rfl | ⟨1, _⟩ => rfl
theorem ridx1_eq (j : S16384x4096.Idx) (k : Fin 512) : ridx_main_v1 j k = ix2 (j 1) k :=
  funext fun a => match a with | ⟨0, _⟩ => rfl | ⟨1, _⟩ => rfl
/-- The bias, broadcast to a row and then down the batch, is read at the gate column. -/
theorem bidx_eq (j : S16384x4096.Idx) : idx_main_v3 (idx_main_v4 j) = ix1 (j 1) :=
  funext fun a => match a with | ⟨0, _⟩ => rfl

/-- The [16384, 4096] array of all four gates' pre-activations, at an index. -/
theorem pre_eq (j : S16384x4096.Idx) :
    val_main_v5 (F := Ideal) x0 x1 x3 x4 x5 j = gatePre x0 x1 x3 x4 x5 (j 0) (j 1) := by
  rw [val_main_v5_apply, val_main_v2_apply, val_main_v0_apply, val_main_v1_apply, val_main_v4_apply, val_main_v3_apply, bidx_eq]
  simp only [lidx0_eq, ridx0_eq, lidx1_eq, ridx1_eq]
  rfl

/-- The same at an index given by its row and its gate column. -/
theorem pre_at (j : S16384x4096.Idx) (n : Fin 16384) (g : Fin 4096) (h0 : (j 0).val = n.val) (h1 : (j 1).val = g.val) :
    val_main_v5 (F := Ideal) x0 x1 x3 x4 x5 j = gatePre x0 x1 x3 x4 x5 n g := by
  have e0 : j 0 = n := Fin.ext h0
  have e1 : j 1 = g := Fin.ext h1
  rw [pre_eq, e0, e1]

/-- The input gate: the slice from column 0, through negate, exponential, add one, divide one. -/
theorem gate_i (i : S16384x1024.Idx) :
    val_main_v15 (F := Ideal) x0 x1 x3 x4 x5 i = Ideal.logistic (gatePre x0 x1 x3 x4 x5 (i 0) (gcol 0 (by norm_num) (i 1))) := by
  rw [val_main_v15_apply, val_main_v14_apply, val_main_cst_0_apply, val_main_v13_apply, val_main_v12_apply, val_main_cst_apply,
    val_main_v11_apply, val_main_v10_apply, val_main_v6_apply,
    pre_at x0 x1 x3 x4 x5 (idx_main_v6 i) (i 0) (gcol 0 (by norm_num) (i 1)) rfl (by show (i 1).val = 0 + (i 1).val; omega)]
  exact logistic_expanded _

/-- The forget gate: the slice from column 1024. -/
theorem gate_f (i : S16384x1024.Idx) :
    val_main_v21 (F := Ideal) x0 x1 x3 x4 x5 i = Ideal.logistic (gatePre x0 x1 x3 x4 x5 (i 0) (gcol 1024 (by norm_num) (i 1))) := by
  rw [val_main_v21_apply, val_main_v20_apply, val_main_cst_2_apply, val_main_v19_apply, val_main_v18_apply, val_main_cst_1_apply,
    val_main_v17_apply, val_main_v16_apply, val_main_v7_apply,
    pre_at x0 x1 x3 x4 x5 (idx_main_v7 i) (i 0) (gcol 1024 (by norm_num) (i 1)) rfl rfl]
  exact logistic_expanded _

/-- The candidate: tanh of the slice from column 2048. -/
theorem gate_g (i : S16384x1024.Idx) :
    val_main_v22 (F := Ideal) x0 x1 x3 x4 x5 i = Ideal.tanh (gatePre x0 x1 x3 x4 x5 (i 0) (gcol 2048 (by norm_num) (i 1))) := by
  rw [val_main_v22_apply, val_main_v8_apply,
    pre_at x0 x1 x3 x4 x5 (idx_main_v8 i) (i 0) (gcol 2048 (by norm_num) (i 1)) rfl rfl]
  rfl

/-- The output gate: the slice from column 3072. -/
theorem gate_o (i : S16384x1024.Idx) :
    val_main_v28 (F := Ideal) x0 x1 x3 x4 x5 i = Ideal.logistic (gatePre x0 x1 x3 x4 x5 (i 0) (gcol 3072 (by norm_num) (i 1))) := by
  rw [val_main_v28_apply, val_main_v27_apply, val_main_cst_4_apply, val_main_v26_apply, val_main_v25_apply, val_main_cst_3_apply,
    val_main_v24_apply, val_main_v23_apply, val_main_v9_apply,
    pre_at x0 x1 x3 x4 x5 (idx_main_v9 i) (i 0) (gcol 3072 (by norm_num) (i 1)) rfl rfl]
  exact logistic_expanded _

/-- The reference's result is the cell function of its arguments. -/
theorem result_eq : val_main_v33 (F := Ideal) x0 x1 x2 x3 x4 x5 = cell x0 x1 x2 x3 x4 x5 := by
  funext i
  rw [val_main_v33_apply, val_main_v32_apply, val_main_v31_apply, val_main_v29_apply, val_main_v30_apply,
    gate_o, gate_f, gate_i, gate_g]
  rfl

end Cert.ReferenceIdeal.RefCell

end
-- ==== Proof.GatePay.lean ====
/-
  What one grid point of the kernel computes, read at an index of its 512 × 1024 output block.

  The body concatenates the point's 512 rows of h_prev and of behavior into one 512 × 1536 operand and multiplies it,
  gate by gate, against a 1024-row slab of the concatenated weights, contracting the 1536 columns. At row `p` and gate
  column `q` that contraction is a sum over 1536 columns of (operand at (p, k)) · (slab at (q, k)); because the operand
  is a concatenation, it is the hidden row against the slab's first 1024 columns plus the input row against its last
  512. Adding the bias row and applying the logistic function or tanh gives the gate. (The narrowing casts to bf16
  are the identity on the extended reals, so they do not appear.)
-/
import proofs.«417434_j64467459113378_3_alg».proof.Proof.Gen.KernelIdeal.Skeleton
import proofs.«417434_j64467459113378_3_alg».proof.Proof.LstmCell
import Idealize.ShloMosaic.PureOps.Ideal.Laws

noncomputable section

open scoped BigOperators

namespace Cert.KernelIdeal.GatePay

open Cert.KernelIdeal Cert.KernelIdeal.Gen Idealize.ShloMosaic Idealize.ShloMosaic.ValueIdx Cert.LstmCell

/-! ## The contraction's operand indices -/

theorem lhs_0 (i : S512x1024.Idx) (q : dot_S512x1536_S1024x1536_S512x1024_1_1_0_0_n_n.contr.Idx) :
    (dot_S512x1536_S1024x1536_S512x1024_1_1_0_0_n_n.lhsIdx i q 0).val = (i 0).val := by
  unfold DotDims.lhsIdx
  rw [dif_neg (show ¬(0 : Fin S512x1536.rank) ∈ dot_S512x1536_S1024x1536_S512x1024_1_1_0_0_n_n.lhsBatch by decide), dif_pos (show (0 : Fin S512x1536.rank) ∈ dot_S512x1536_S1024x1536_S512x1024_1_1_0_0_n_n.lhsNonContracting by decide)]
  rfl
theorem lhs_1 (i : S512x1024.Idx) (q : dot_S512x1536_S1024x1536_S512x1024_1_1_0_0_n_n.contr.Idx) :
    (dot_S512x1536_S1024x1536_S512x1024_1_1_0_0_n_n.lhsIdx i q 1).val = (q ⟨0, by decide⟩).val :=
  dot_S512x1536_S1024x1536_S512x1024_1_1_0_0_n_n.lhsIdx_val_of_single rfl i q
theorem rhs_0 (i : S512x1024.Idx) (q : dot_S512x1536_S1024x1536_S512x1024_1_1_0_0_n_n.contr.Idx) :
    (dot_S512x1536_S1024x1536_S512x1024_1_1_0_0_n_n.rhsIdx i q 0).val = (i 1).val := by
  unfold DotDims.rhsIdx
  rw [dif_neg (show ¬(0 : Fin S1024x1536.rank) ∈ dot_S512x1536_S1024x1536_S512x1024_1_1_0_0_n_n.rhsBatch by decide), dif_pos (show (0 : Fin S1024x1536.rank) ∈ dot_S512x1536_S1024x1536_S512x1024_1_1_0_0_n_n.rhsNonContracting by decide)]
  rfl
theorem rhs_1 (i : S512x1024.Idx) (q : dot_S512x1536_S1024x1536_S512x1024_1_1_0_0_n_n.contr.Idx) :
    (dot_S512x1536_S1024x1536_S512x1024_1_1_0_0_n_n.rhsIdx i q 1).val = (q ⟨0, by decide⟩).val :=
  dot_S512x1536_S1024x1536_S512x1024_1_1_0_0_n_n.rhsIdx_val_of_single rfl i q

/-- The product into a zero accumulator, at output index `j`: row `j 0` of the left operand against row `j 1` of the
    right one, summed over the 1536 columns. -/
theorem contraction_at (L : FVec Ideal S512x1536 .bf16) (R : FVec Ideal S1024x1536 .bf16) (j : S512x1024.Idx) :
    matmul (φ₁ := .bf16) (φ₂ := .bf16) dot_S512x1536_S1024x1536_S512x1024_1_1_0_0_n_n none L R (constant (F := Ideal) S512x1024 .f32 0x00000000#32) j
      = ∑ k : Fin 1536, L (ix2 (j 0) k) * R (ix2 (j 1) k) := by
  simp only [matmul]
  rw [Ideal.matmul_constant_zero_apply, ← Equiv.sum_comp (contrEquiv1 dot_S512x1536_S1024x1536_S512x1024_1_1_0_0_n_n 1536 rfl rfl).symm]
  refine Finset.sum_congr rfl fun k _ => ?_
  have hk := contrEquiv1_symm_val dot_S512x1536_S1024x1536_S512x1024_1_1_0_0_n_n 1536 rfl rfl k
  have el : dot_S512x1536_S1024x1536_S512x1024_1_1_0_0_n_n.lhsIdx j ((contrEquiv1 dot_S512x1536_S1024x1536_S512x1024_1_1_0_0_n_n 1536 rfl rfl).symm k) = ix2 (j 0) k := funext fun a => Fin.ext (by
    match a with
    | ⟨0, _⟩ => exact lhs_0 _ _
    | ⟨1, _⟩ => exact (lhs_1 _ _).trans hk)
  have er : dot_S512x1536_S1024x1536_S512x1024_1_1_0_0_n_n.rhsIdx j ((contrEquiv1 dot_S512x1536_S1024x1536_S512x1024_1_1_0_0_n_n 1536 rfl rfl).symm k) = ix2 (j 1) k := funext fun a => Fin.ext (by
    match a with
    | ⟨0, _⟩ => exact rhs_0 _ _
    | ⟨1, _⟩ => exact (rhs_1 _ _).trans hk)
  exact congrArg₂ (· * ·) (congrArg L el) (congrArg R er)

/-! ## One gate at an index -/

variable (P0 : Vec Ideal S512x1024 .f32) (P1 : Vec Ideal S512x512 .f32) (R : Vec Ideal S1024x1536 .bf16) (bb : Vec Ideal S1x1024 .f32)

/-- The two-part sum a gate's contraction comes to: the hidden row against the slab's first 1024 columns plus the
    input row against its last 512. -/
def dotBlk (p : Fin 512) (q : Fin 1024) : EReal :=
  ∑ k : Fin 1024, P0 (ix2 p k) * R (ix2 q (colL k)) + ∑ k : Fin 512, P1 (ix2 p k) * R (ix2 q (colR k))

/-- The contraction of the concatenated operand against a slab is that two-part sum. -/
theorem fused_at (p : Fin 512) (q : Fin 1024) :
    matmul (φ₁ := .bf16) (φ₂ := .bf16) dot_S512x1536_S1024x1536_S512x1024_1_1_0_0_n_n none (k0_pay2 P0 P1) (shapeCast S1024x1536 R shapeCasts_S1024x1536_S1024x1536)
      (constant (F := Ideal) S512x1024 .f32 0x00000000#32) (ix2 p q) = dotBlk P0 P1 R p q := by
  rw [shapeCast_self]
  refine (contraction_at (k0_pay2 P0 P1) R (ix2 p q)).trans ?_
  unfold k0_pay2 dotBlk
  exact concat_contraction P0 P1 concatenates_S512x1024_S512x512_S512x1536_d1 R p q

/-- The bias row, cast to its own shape and broadcast down the block's rows, is read at the column. -/
theorem bias_at (p : Fin 512) (q : Fin 1024) :
    broadcastTo S512x1024 (shapeCast S1x1024 bb shapeCasts_S1x1024_S1x1024) broadcasts_S1x1024_S512x1024 (ix2 p q)
      = bb (ix2 (0 : Fin 1) q) := by
  rw [shapeCast_self]
  exact broadcastTo_apply bb broadcasts_S1x1024_S512x1024 (ix2 p q) (ix2 (0 : Fin 1) q) (fun a => match a with
    | ⟨0, _⟩ => by show 0 = (if (1 : Nat) = 1 then 0 else p.val); rw [if_pos rfl]
    | ⟨1, _⟩ => by show q.val = (if (1024 : Nat) = 1 then 0 else q.val); rw [if_neg (by decide)])

/-- The output gate's contraction (its bias is added by the last payload). -/
theorem pay6_at (p : Fin 512) (q : Fin 1024) : k0_pay6 (F := Ideal) P0 P1 R (ix2 p q) = dotBlk P0 P1 R p q := by
  unfold k0_pay6
  exact fused_at P0 P1 R p q

/-- The input gate: the logistic function of contraction plus bias. -/
theorem pay3_at (p : Fin 512) (q : Fin 1024) :
    k0_pay3 (F := Ideal) P0 P1 R bb (ix2 p q) = Ideal.logistic (dotBlk P0 P1 R p q + bb (ix2 (0 : Fin 1) q)) := by
  unfold k0_pay3
  have e1 := fused_at P0 P1 R p q
  have e2 := bias_at bb p q
  show Ideal.logistic (matmul (φ₁ := .bf16) (φ₂ := .bf16) dot_S512x1536_S1024x1536_S512x1024_1_1_0_0_n_n none (k0_pay2 P0 P1) (shapeCast S1024x1536 R shapeCasts_S1024x1536_S1024x1536)
      (constant (F := Ideal) S512x1024 .f32 0x00000000#32) (ix2 p q)
    + broadcastTo S512x1024 (shapeCast S1x1024 bb shapeCasts_S1x1024_S1x1024) broadcasts_S1x1024_S512x1024 (ix2 p q)) = _
  rw [e1, e2]

/-- The forget gate: the same of its own slab and bias row. -/
theorem pay4_at (p : Fin 512) (q : Fin 1024) :
    k0_pay4 (F := Ideal) P0 P1 R bb (ix2 p q) = Ideal.logistic (dotBlk P0 P1 R p q + bb (ix2 (0 : Fin 1) q)) := by
  unfold k0_pay4
  have e1 := fused_at P0 P1 R p q
  have e2 := bias_at bb p q
  show Ideal.logistic (matmul (φ₁ := .bf16) (φ₂ := .bf16) dot_S512x1536_S1024x1536_S512x1024_1_1_0_0_n_n none (k0_pay2 P0 P1) (shapeCast S1024x1536 R shapeCasts_S1024x1536_S1024x1536)
      (constant (F := Ideal) S512x1024 .f32 0x00000000#32) (ix2 p q)
    + broadcastTo S512x1024 (shapeCast S1x1024 bb shapeCasts_S1x1024_S1x1024) broadcasts_S1x1024_S512x1024 (ix2 p q)) = _
  rw [e1, e2]

/-- The candidate: tanh of contraction plus bias. -/
theorem pay5_at (p : Fin 512) (q : Fin 1024) :
    k0_pay5 (F := Ideal) P0 P1 R bb (ix2 p q) = Ideal.tanh (dotBlk P0 P1 R p q + bb (ix2 (0 : Fin 1) q)) := by
  unfold k0_pay5
  have e1 := fused_at P0 P1 R p q
  have e2 := bias_at bb p q
  show Ideal.tanh (matmul (φ₁ := .bf16) (φ₂ := .bf16) dot_S512x1536_S1024x1536_S512x1024_1_1_0_0_n_n none (k0_pay2 P0 P1) (shapeCast S1024x1536 R shapeCasts_S1024x1536_S1024x1536)
      (constant (F := Ideal) S512x1024 .f32 0x00000000#32) (ix2 p q)
    + broadcastTo S512x1024 (shapeCast S1x1024 bb shapeCasts_S1x1024_S1x1024) broadcasts_S1x1024_S512x1024 (ix2 p q)) = _
  rw [e1, e2]

end Cert.KernelIdeal.GatePay

end
-- ==== Proof.CellValue.lean ====
/-
  The kernel's result array is the LSTM cell function of its argument arrays.

  Grid point `t` of 32 holds rows 512·t … 512·t + 511 of h_prev, behavior and c_prev, and the whole of two arrays the
  host wrote before the launch: the weights concatenated along their columns (Wh's 1024 then Wx's 512) and the bias
  as one row. At row `p`, column `q` of its block the body's gate with columns from `o` contracts the point's
  concatenated rows against weight rows o … o + 1023, which by the concatenation law is h_prev's row against Wh's row
  `o + q` plus behavior's row against Wx's row `o + q`; with the bias at `o + q` that is the gate's pre-activation
  at batch row 512·t + p. So the point writes back block `t` of the cell function; the 32 blocks tile the array
  (row `n` lies in block `n / 512`), and the array ends holding the cell function everywhere.
-/
import proofs.«417434_j64467459113378_3_alg».proof.Proof.Gen.KernelIdeal.Value
import proofs.«417434_j64467459113378_3_alg».proof.Proof.GatePay
import Idealize.ShloMosaic.Lib.StableHlo.Run

set_option maxRecDepth 16384

noncomputable section

open scoped BigOperators

namespace Cert.KernelIdeal.CellValue

open Cert.KernelIdeal Cert.KernelIdeal.Gen Idealize.ShloMosaic Idealize.ShloMosaic.TcCoe Idealize.SL.Sem Idealize.ShloMosaic.StableHlo
open Idealize.ShloMosaic.ValueIdx Cert.LstmCell Cert.KernelIdeal.GatePay
open Idealize.ShloMosaic.Pipeline (Dat)

theorem hz : (![0, 0] : Fin 2 → Nat) = fun _ => 0 := funext fun a => by fin_cases a <;> rfl

/-! ## One grid point, over variables -/

section Point
variable (x0 : Vec Ideal S512x1024 .f32) (x1 : Vec Ideal S512x512 .f32) (x2 : Vec Ideal S512x1024 .f32)
  (x3 : Vec Ideal S4096x1536 .bf16) (x4 : Vec Ideal S1x4096 .f32)
  (beh : (⟨2, ![16384, 512]⟩ : Shape).Idx → EReal) (h cp : (⟨2, ![16384, 1024]⟩ : Shape).Idx → EReal)
  (Wh : (⟨2, ![4096, 1024]⟩ : Shape).Idx → EReal) (Wx : (⟨2, ![4096, 512]⟩ : Shape).Idx → EReal)
  (b : (⟨1, ![4096]⟩ : Shape).Idx → EReal)

/-- Batch row `r + p`: row `p` of the block whose rows start at `r`. -/
abbrev brow (r : Nat) (hr : r + 512 ≤ 16384) (p : Fin 512) : Fin 16384 := ⟨r + p.val, by have := p.isLt; omega⟩

/-- A 1024-row slab of the weights from row `o`, at its row `g`, is the weights at row `o + g`. -/
theorem slab_at (o : Nat) (ho : o + 1024 ≤ 4096) (inb : ∀ a, (![o, 0] : Fin 2 → Nat) a + S1024x1536.size a ≤ S4096x1536.size a)
    (g : Fin 1024) (kk : Fin 1536) :
    View.ld x3 (Rect.unit (s := S4096x1536) ![o, 0] S1024x1536.size inb) (ix2 g kk) = x3 (ix2 (gcol o ho g) kk) :=
  congrArg x3 (funext fun a => Fin.ext (by
    match a with
    | ⟨0, _⟩ => show o + 1 * g.val = o + g.val; omega
    | ⟨1, _⟩ => show 0 + 1 * kk.val = kk.val; omega))

/-- A 1024-column stretch of the bias row from column `o`, at its column `q`, is the bias row at column `o + q`. -/
theorem bias_slab_at (o : Nat) (ho : o + 1024 ≤ 4096) (inb : ∀ a, (![0, o] : Fin 2 → Nat) a + S1x1024.size a ≤ S1x4096.size a)
    (q : Fin 1024) :
    View.ld x4 (Rect.unit (s := S1x4096) ![0, o] S1x1024.size inb) (ix2 (0 : Fin 1) q) = x4 (ix2 (0 : Fin 1) (gcol o ho q)) :=
  congrArg x4 (funext fun a => Fin.ext (by
    match a with
    | ⟨0, _⟩ => show 0 + 1 * 0 = 0; omega
    | ⟨1, _⟩ => show o + 1 * q.val = o + q.val; omega))

/-- What the point's blocks are, as hypotheses: rows `r …` of the three batch arrays, the concatenated weights, the bias row. -/
structure Holds (r : Nat) (hr : r + 512 ≤ 16384) : Prop where
  hid : ∀ (p : Fin 512) (k : Fin 1024), x0 (ix2 p k) = h (ix2 (brow r hr p) k)
  inp : ∀ (p : Fin 512) (k : Fin 512), x1 (ix2 p k) = beh (ix2 (brow r hr p) k)
  old : ∀ (p : Fin 512) (q : Fin 1024), x2 (ix2 p q) = cp (ix2 (brow r hr p) q)
  wL : ∀ (g : Fin 4096) (k : Fin 1024), x3 (ix2 g (colL k)) = Wh (ix2 g k)
  wR : ∀ (g : Fin 4096) (k : Fin 512), x3 (ix2 g (colR k)) = Wx (ix2 g k)
  bias : ∀ g : Fin 4096, x4 (ix2 (0 : Fin 1) g) = b (ix1 g)

variable {x0 x1 x2 x3 x4 beh h cp Wh Wx b}

/-- The gate whose columns start at `o`: contraction against its slab plus its stretch of the bias row is the gate's
    pre-activation at the block's batch row. -/
theorem gate_blk {r : Nat} {hr : r + 512 ≤ 16384} (H : Holds x0 x1 x2 x3 x4 beh h cp Wh Wx b r hr)
    (o : Nat) (ho : o + 1024 ≤ 4096)
    (inbW : ∀ a, (![o, 0] : Fin 2 → Nat) a + S1024x1536.size a ≤ S4096x1536.size a)
    (inbB : ∀ a, (![0, o] : Fin 2 → Nat) a + S1x1024.size a ≤ S1x4096.size a) (p : Fin 512) (q : Fin 1024) :
    dotBlk x0 x1 (View.ld x3 (Rect.unit (s := S4096x1536) ![o, 0] S1024x1536.size inbW)) p q
        + View.ld x4 (Rect.unit (s := S1x4096) ![0, o] S1x1024.size inbB) (ix2 (0 : Fin 1) q)
      = gatePre beh h Wh Wx b (brow r hr p) (gcol o ho q) := by
  unfold dotBlk gatePre
  congr 1
  · congr 1
    · exact Finset.sum_congr rfl fun k _ => by rw [slab_at x3 o ho inbW q (colL k), H.hid, H.wL]
    · exact Finset.sum_congr rfl fun k _ => by rw [slab_at x3 o ho inbW q (colR k), H.inp, H.wR]
  · rw [bias_slab_at x4 o ho inbB q, H.bias]

theorem ix5_0_eq (p : Fin 512) (q : Fin 1024) : Value.ix5_0 (ix2 p q) = ix2 p q :=
  funext fun a => match a with | ⟨0, _⟩ => rfl | ⟨1, _⟩ => rfl
theorem ix5_1_eq (p : Fin 512) (q : Fin 1024) : Value.ix5_1 (ix2 p q) = ix2 (0 : Fin 1) q :=
  funext fun a => match a with | ⟨0, _⟩ => rfl | ⟨1, _⟩ => rfl
theorem ix5_2_eq (p : Fin 512) (q : Fin 1024) : Value.ix5_2 (ix2 p q) = ix2 p q :=
  funext fun a => match a with | ⟨0, _⟩ => rfl | ⟨1, _⟩ => rfl
theorem ix5_3_eq (p : Fin 512) (q : Fin 1024) : Value.ix5_3 (ix2 p q) = ix2 p q :=
  funext fun a => match a with | ⟨0, _⟩ => rfl | ⟨1, _⟩ => rfl
theorem ix5_4_eq (p : Fin 512) (q : Fin 1024) : Value.ix5_4 (ix2 p q) = ix2 p q :=
  funext fun a => match a with | ⟨0, _⟩ => rfl | ⟨1, _⟩ => rfl
theorem ix5_5_eq (p : Fin 512) (q : Fin 1024) : Value.ix5_5 (ix2 p q) = ix2 p q :=
  funext fun a => match a with | ⟨0, _⟩ => rfl | ⟨1, _⟩ => rfl

/-- What the body leaves in the output block, at block index `y`: the cell function at batch row `r + y 0`, column `y 1`. -/
theorem block_eq {r : Nat} {hr : r + 512 ≤ 16384} (H : Holds x0 x1 x2 x3 x4 beh h cp Wh Wx b r hr) (y : S512x1024.Idx) :
    out0_5 x0 x1 x2 x3 x4 y = cell beh h cp Wh Wx b (ix2 (brow r hr (y 0)) (y 1)) := by
  obtain ⟨p, q, rfl⟩ : ∃ (p : Fin 512) (q : Fin 1024), y = ix2 p q := ⟨y 0, y 1, eq_ix2 y⟩
  unfold out0_5
  rw [Value.canon5_eq]
  simp only [View.ld_unit_zero (S := S512x1024) hz, View.ld_unit_zero (S := S512x512) hz]
  show Ideal.logistic (k0_pay6 (F := Ideal) x0 x1 (View.ld x3 r0_8) (Value.ix5_0 (ix2 p q)) + View.ld x4 r0_9 (Value.ix5_1 (ix2 p q)))
      * Ideal.tanh (k0_pay4 (F := Ideal) x0 x1 (View.ld x3 r0_4) (View.ld x4 r0_5) (Value.ix5_2 (ix2 p q)) * x2 (Value.ix5_3 (ix2 p q))
          + k0_pay3 (F := Ideal) x0 x1 (View.ld x3 r0_2) (View.ld x4 r0_3) (Value.ix5_4 (ix2 p q))
            * k0_pay5 (F := Ideal) x0 x1 (View.ld x3 r0_6) (View.ld x4 r0_7) (Value.ix5_5 (ix2 p q))) = _
  rw [ix5_0_eq, ix5_1_eq, ix5_2_eq, ix5_3_eq, ix5_4_eq, ix5_5_eq, pay6_at, pay4_at, pay3_at, pay5_at,
    gate_blk H 3072 (by norm_num), gate_blk H 1024 (by norm_num), gate_blk H 0 (by norm_num), gate_blk H 2048 (by norm_num), H.old]
  rfl

end Point

/-! ## The arrays the region finds -/

variable (m : (ℓ : Loc nD τ sig) → Buf (Elt Ideal) ℓ) (ρ : Dev nD → PrngReg)

/-- The weights window's array: the host concatenated Wh and Wx along their columns (its casts are the identity). -/
theorem wcat_eq (c : Dev nD) : (V m c main_call0_v2 : S4096x1536.Idx → EReal)
    = concatenate S4096x1536 1 [⟨S4096x1024, ((m ((c : Thread nD τ).loc main_arg3)) : S4096x1024.Idx → EReal)⟩,
        ⟨S4096x512, ((m ((c : Thread nD τ).loc main_arg4)) : S4096x512.Idx → EReal)⟩] concatenates_S4096x1024_S4096x512_S4096x1536_d1 := by
  dsimp only [Gen.V, Gen.hostOps0]; after_results; rfl

/-- The bias window's array: the host reshaped the bias to one row. -/
theorem brow_eq (c : Dev nD) : (V m c main_call0_v3 : S1x4096.Idx → EReal)
    = shapeCast S1x4096 ((m ((c : Thread nD τ).loc main_arg5)) : S4096.Idx → EReal) shapeCasts_S4096_S1x4096 := by
  dsimp only [Gen.V, Gen.hostOps0]; after_results; rfl

/-- The index maps over the 32 points: the three batch windows and the output are at block (t, 0), the two resident
    windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 32 := Nat.lt_of_lt_of_eq t.isLt N_0

/-- The point's five input blocks are what `Holds` says, from batch row 512·t. -/
theorem holds (c : Dev nD) (t : Fin cfg0.N) :
    Holds (iblk m c 0 t) (iblk m c 1 t) (iblk m c 2 t) (iblk m c 3 t) (iblk m c 4 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      (512 * t.val) (by have := t_lt t; omega) := by
  obtain ⟨e00, e01, e10, e11, e20, e21, e30, e31, e40, e41, e50, e51⟩ := idx_facts t
  have ht := t_lt t
  refine ⟨fun p k => ?_, fun p k => ?_, fun p q => ?_, fun g k => ?_, fun g k => ?_, fun g => ?_⟩
  · show V m c main_arg1 (((cfg0.win 0).blk t).view.emb (ix2 p k)) = _
    rw [V_main_arg1]
    refine congrArg _ (funext fun a => Fin.ext ?_)
    match a with
    | ⟨0, _⟩ => show win0_0.index t (0 : Fin 2) * 512 + 1 * p.val = 512 * t.val + p.val; omega
    | ⟨1, _⟩ => show win0_0.index t (1 : Fin 2) * 1024 + 1 * k.val = k.val; omega
  · show V m c main_arg0 (((cfg0.win 1).blk t).view.emb (ix2 p k)) = _
    rw [V_main_arg0]
    refine congrArg _ (funext fun a => Fin.ext ?_)
    match a with
    | ⟨0, _⟩ => show win0_1.index t (0 : Fin 2) * 512 + 1 * p.val = 512 * t.val + p.val; omega
    | ⟨1, _⟩ => show win0_1.index t (1 : Fin 2) * 512 + 1 * k.val = k.val; omega
  · show V m c main_arg2 (((cfg0.win 2).blk t).view.emb (ix2 p q)) = _
    rw [V_main_arg2]
    refine congrArg _ (funext fun a => Fin.ext ?_)
    match a with
    | ⟨0, _⟩ => show win0_2.index t (0 : Fin 2) * 512 + 1 * p.val = 512 * t.val + p.val; omega
    | ⟨1, _⟩ => show win0_2.index t (1 : Fin 2) * 1024 + 1 * q.val = q.val; omega
  · show V m c main_call0_v2 (((cfg0.win 3).blk t).view.emb (ix2 g (colL k))) = _
    have e : ((cfg0.win 3).blk t).view.emb (ix2 g (colL k)) = ix2 g (colL k) := funext fun a => Fin.ext (by
      match a with
      | ⟨0, _⟩ => show win0_3.index t (0 : Fin 2) * 4096 + 1 * g.val = g.val; omega
      | ⟨1, _⟩ => show win0_3.index t (1 : Fin 2) * 1536 + 1 * k.val = k.val; omega)
    rw [e]
    exact (congrFun (wcat_eq m c) (ix2 g (colL k))).trans (concat_colL (M := 4096) _ _ _ g k)
  · show V m c main_call0_v2 (((cfg0.win 3).blk t).view.emb (ix2 g (colR k))) = _
    have e : ((cfg0.win 3).blk t).view.emb (ix2 g (colR k)) = ix2 g (colR k) := funext fun a => Fin.ext (by
      match a with
      | ⟨0, _⟩ => show win0_3.index t (0 : Fin 2) * 4096 + 1 * g.val = g.val; omega
      | ⟨1, _⟩ => show win0_3.index t (1 : Fin 2) * 1536 + 1 * (1024 + k.val) = 1024 + k.val; omega)
    rw [e]
    exact (congrFun (wcat_eq m c) (ix2 g (colR k))).trans (concat_colR (M := 4096) _ _ _ g k)
  · show V m c main_call0_v3 (((cfg0.win 4).blk t).view.emb (ix2 (0 : Fin 1) g)) = _
    have e : ((cfg0.win 4).blk t).view.emb (ix2 (0 : Fin 1) g) = ix2 (0 : Fin 1) g := funext fun a => Fin.ext (by
      match a with
      | ⟨0, _⟩ => show win0_4.index t (0 : Fin 2) * 1 + 1 * 0 = 0; omega
      | ⟨1, _⟩ => show win0_4.index t (1 : Fin 2) * 4096 + 1 * g.val = g.val; omega)
    rw [e]
    refine (congrFun (brow_eq m c) (ix2 (0 : Fin 1) g)).trans ?_
    refine shapeCast_apply _ shapeCasts_S4096_S1x4096 (ix2 (0 : Fin 1) g) (ix1 g) ?_
    rw [Shape.rowMajor_val_one, Shape.rowMajor_val_two]
    show g.val = 0 * 4096 + g.val
    omega

/-! ## What each point writes back, the cover, the array -/

/-- Point `t` writes back block `t` of the cell function of the arguments. -/
theorem flushed_eq (c : Dev nD) (t : Fin cfg0.N) :
    (dats m 0 c).flushed 5 t = ((cfg0.win 5).blk t).view.read (Elt Ideal) (cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Value.flushed5]
  obtain ⟨e00, e01, e10, e11, e20, e21, e30, e31, e40, e41, e50, e51⟩ := idx_facts t
  have ht := t_lt t
  funext y
  show out0_5 (iblk m c 0 t) (iblk m c 1 t) (iblk m c 2 t) (iblk m c 3 t) (iblk m c 4 t) y
    = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 5).blk t).view.emb y)
  refine (block_eq (holds m c t) y).trans (congrArg _ (funext fun a => Fin.ext ?_))
  match a with
  | ⟨0, _⟩ => show 512 * t.val + (y 0).val = win0_5.index t (0 : Fin 2) * 512 + 1 * (y 0).val; omega
  | ⟨1, _⟩ => show (y 1).val = win0_5.index t (1 : Fin 2) * 1024 + 1 * (y 1).val; omega

/-- An index of the array is in point `t`'s block iff each coordinate is in the block's range on its axis. -/
theorem mem_blk (t : Fin cfg0.N) (i : S16384x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v0).slice (win0_5.rect t)).set ↔ _
  rw [View.set_slice_whole, Rect.mem_set_unit]
  exact Iff.rfl

/-- Row `n` of the array lies in the block of point `n / 512`. -/
theorem cover (i : S16384x1024.Idx) : ∃ t : Fin cfg0.N, (cfg0.win 5).flush t = true ∧ i ∈ ((cfg0.win 5).blk t).view.set := by
  have hi0 : (i 0).val < 16384 := (i 0).isLt
  have hi1 : (i 1).val < 1024 := (i 1).isLt
  have hN : cfg0.N = 32 := N_0
  have hlt : (i 0).val / 512 < cfg0.N := by rw [hN]; omega
  obtain ⟨e00, e01, e10, e11, e20, e21, e30, e31, e40, e41, e50, e51⟩ := idx_facts ⟨(i 0).val / 512, hlt⟩
  refine ⟨⟨(i 0).val / 512, hlt⟩, flush0_5 _, ?_⟩
  rw [mem_blk]
  intro a
  match a with
  | ⟨0, _⟩ =>
    show win0_5.index ⟨(i 0).val / 512, hlt⟩ (0 : Fin 2) * 512 ≤ (i 0).val ∧ (i 0).val < win0_5.index ⟨(i 0).val / 512, hlt⟩ (0 : Fin 2) * 512 + 512
    rw [e50]; show (i 0).val / 512 * 512 ≤ (i 0).val ∧ (i 0).val < (i 0).val / 512 * 512 + 512; omega
  | ⟨1, _⟩ =>
    show win0_5.index ⟨(i 0).val / 512, hlt⟩ (1 : Fin 2) * 1024 ≤ (i 1).val ∧ (i 1).val < win0_5.index ⟨(i 0).val / 512, hlt⟩ (1 : Fin 2) * 1024 + 1024
    rw [e51]; omega

/-- The result array after the run is the cell function of the arguments. -/
theorem final (c : Dev nD) : (dats m 0 c).arrAt 5 cfg0.N = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 5 (cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (fun t _ => flushed_eq m c t) cover

/-- The kernel's run: it terminates with the result array at the cell function and the arguments unchanged. -/
theorem run : θ_run defs (onTc (τ := τ) (main (F := Ideal))) ⟨m, fun _ => 0, ρ⟩ fun r => ∀ c : Dev nD,
      r.2.mem ((c : Thread nD τ).loc main_v0) = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.CellValue

end
-- ==== Proof.lean ====
/-
  An LSTM cell step computed two ways gives one result over the extended reals.

  The kernel casts each 512-row tile of h_prev and behavior to bf16, concatenates them into one 512 × 1536 operand and,
  for each of the four gates, contracts it against 1024 rows of the host-concatenated bf16 weights [Wh | Wx], adds the
  gate's stretch of the bias and applies the logistic function (tanh for the candidate); it then forms
  o · tanh(f · c_prev + i · g). The reference computes h_prev·Whᵀ + behavior·Wxᵀ + b for all 4096 gate columns at
  once, slices the four gates, spells each sigmoid as 1 / (1 + e^(−x)), and forms the same expression.

  Over the extended reals a change of float format is the identity, the logistic function IS 1 / (1 + e^(−x)), and a
  sum over the concatenated 1536 columns is the sum over the first 1024 plus the sum over the last 512 — only
  associativity and commutativity of addition, so nothing is asked of the inputs beyond what the statement assumes,
  and the precondition is never opened. Both programs therefore end with the cell function (Proof/LstmCell.lean) of
  the six arguments: the reference by reading its operations at an index (Proof/RefCell.lean), the kernel by reading
  what each of its 32 grid points writes back and that the 32 blocks tile the result (Proof/GatePay.lean,
  Proof/CellValue.lean). The three frames are the generated frame runs; the idealization rewrote nothing, so
  `preserves` is trivial.
-/
import proofs.«417434_j64467459113378_3_alg».proof.Defs
import proofs.«417434_j64467459113378_3_alg».proof.Proof.Gen.Kernel
import proofs.«417434_j64467459113378_3_alg».proof.Proof.Gen.Kernel.Skeleton
import proofs.«417434_j64467459113378_3_alg».proof.Proof.Gen.Kernel.Launch
import proofs.«417434_j64467459113378_3_alg».proof.Proof.Gen.Kernel.Points
import proofs.«417434_j64467459113378_3_alg».proof.Proof.Gen.Kernel.Frame
import proofs.«417434_j64467459113378_3_alg».proof.Proof.Gen.KernelIdeal
import proofs.«417434_j64467459113378_3_alg».proof.Proof.Gen.KernelIdeal.Skeleton
import proofs.«417434_j64467459113378_3_alg».proof.Proof.Gen.KernelIdeal.Launch
import proofs.«417434_j64467459113378_3_alg».proof.Proof.Gen.KernelIdeal.Points
import proofs.«417434_j64467459113378_3_alg».proof.Proof.Gen.KernelIdeal.Frame
import proofs.«417434_j64467459113378_3_alg».proof.Proof.Gen.ReferenceIdeal
import proofs.«417434_j64467459113378_3_alg».proof.Proof.Gen.Pre_finite_inputs
import proofs.«417434_j64467459113378_3_alg».proof.Proof.Gen.KernelIdeal.Value
import proofs.«417434_j64467459113378_3_alg».proof.Proof.Gen.ReferenceIdeal.Run
import proofs.«417434_j64467459113378_3_alg».proof.Proof.Gen.ReferenceIdeal.Read
import proofs.«417434_j64467459113378_3_alg».proof.Proof.LstmCell
import proofs.«417434_j64467459113378_3_alg».proof.Proof.RefCell
import proofs.«417434_j64467459113378_3_alg».proof.Proof.CellValue
import Idealize.ShloMosaic.Adequacy
import Idealize.ShloMosaic.Init

noncomputable section

namespace Cert.Proof

open Idealize.ShloMosaic Idealize.SL.Sem

/-- The word-level kernel terminates without a fault and leaves its arguments unchanged: the generated frame run. -/
theorem frame_k : Cert.frame_Kernel := fun m ρ _ => Cert.Kernel.Gen.frame m ρ

/-- The same of the idealized kernel. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end with the cell function of those arguments. -/
theorem algebraic : Cert.algebraic_KernelIdeal_ReferenceIdeal := by
  intro m ρ m' ρ' _ hagree
  refine ⟨_, Cert.KernelIdeal.CellValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefCell.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
